-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x64 : Shape := ⟨2, ![131072, 64]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256 : S_.BroadcastsInDim S256 (![] : Fin 0 → Fin S256.rank)
  reducesTo_S256_S_d0 : S256.ReducesTo [0] S_
  bcast_S_S131072x64 : S_.BroadcastsInDim S131072x64 (![] : Fin 0 → Fin S131072x64.rank)
  reducesTo_S131072x64_S_d0_1 : S131072x64.ReducesTo [0, 1] S_

variable [Facts]

def fn_part1 {F : FTy → Type} [FloatOps F] (main_arg1 : IVec S131072x64 32) (main_v13 : IVec S_ 1) (main_v15 : IVec S131072x64 1) (main_c_5 : IVec S_ 1) : IVec S_ 1 :=
  let main_v16 : IVec S_ 1 := (fun x v => Host.reduce IntOp.andi x v reducesTo_S131072x64_S_d0_1 h_S_) main_v15 main_c_5
  let main_v17 : IVec S_ 1 := andi main_v13 main_v16
  let main_c_6 : IVec S_ 32 := constantI S_ 32 256#32
  let main_v18 : IVec S131072x64 32 := broadcastInDim S131072x64 ![] bcast_S_S131072x64 main_c_6
  let main_v19 : IVec S131072x64 1 := cmpi .slt main_arg1 main_v18
  let main_c_7 : IVec S_ 1 := constantI S_ 1 1#1
  let main_v20 : IVec S_ 1 := (fun x v => Host.reduce IntOp.andi x v reducesTo_S131072x64_S_d0_1 h_S_) main_v19 main_c_7
  let main_v21 : IVec S_ 1 := andi main_v17 main_v20
  main_v21

def fn {F : FTy → Type} [FloatOps F] (main_arg0 : FVec F S131072x256 .f32) (main_arg1 : IVec S131072x64 32) (main_arg2 : FVec F S256 .f32) (main_arg3 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S131072x64 32 := broadcastInDim S131072x64 ![] bcast_S_S131072x64 main_c_4
  let main_v15 : IVec S131072x64 1 := cmpi .sge main_arg1 main_v14
  let main_c_5 : IVec S_ 1 := constantI S_ 1 1#1
  fn_part1 (F := F) main_arg1 main_v13 main_v15 main_c_5
-- ==== Kernel.lean ====
abbrev S131072x256 : Shape := ⟨2, ![131072, 256]⟩
abbrev S131072x64 : Shape := ⟨2, ![131072, 64]⟩
abbrev S256 : Shape := ⟨1, ![256]⟩
abbrev S256x1 : Shape := ⟨2, ![256, 1]⟩
abbrev S256x2 : Shape := ⟨2, ![256, 2]⟩
abbrev S1x256 : Shape := ⟨2, ![1, 256]⟩
abbrev S512x64 : Shape := ⟨2, ![512, 64]⟩
abbrev S512x256 : Shape := ⟨2, ![512, 256]⟩
abbrev S512x64x256 : Shape := ⟨3, ![512, 64, 256]⟩
abbrev S512x64x1 : Shape := ⟨3, ![512, 64, 1]⟩
abbrev S32768x256 : Shape := ⟨2, ![32768, 256]⟩
abbrev S32768x2 : Shape := ⟨2, ![32768, 2]⟩
abbrev S512x64x2 : Shape := ⟨3, ![512, 64, 2]⟩
abbrev S512x2 : Shape := ⟨2, ![512, 2]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072x64, .i32⟩
  | .hbm, ⟨2, _⟩ => ⟨S256, .f32⟩
  | .hbm, ⟨3, _⟩ => ⟨S256, .f32⟩
  | .hbm, ⟨4, _⟩ => ⟨S256x1, .f32⟩
  | .hbm, ⟨5, _⟩ => ⟨S256x1, .f32⟩
  | .hbm, ⟨6, _⟩ => ⟨S256x2, .f32⟩
  | .hbm, ⟨7, _⟩ => ⟨S1x256, .f32⟩
  | .hbm, ⟨8, _⟩ => ⟨S1x256, .f32⟩
  | .hbm, ⟨9, _⟩ => ⟨S131072x256, .f32⟩
  | .local _ .vmem, ⟨0, _⟩ => ⟨S512x64, .i32⟩
  | .local _ .vmem, ⟨1, _⟩ => ⟨S512x64, .i32⟩
  | .local _ .vmem, ⟨2, _⟩ => ⟨S512x256, .f32⟩
  | .local _ .vmem, ⟨3, _⟩ => ⟨S512x256, .f32⟩
  | .local _ .vmem, ⟨4, _⟩ => ⟨S256x2, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S256_S256x1_0 : S256.BroadcastsInDim S256x1 (![0] : Fin 1 → Fin S256x1.rank)
  concatenates_S256x1_S256x1_S256x2_d1 : Shape.Concatenates [S256x1, S256x1] S256x2 1
  shapeCasts_S256_S1x256 : S256.ShapeCasts S1x256
  inb_S512x64_S512x64_0_0 : ∀ a, (![0, 0] : Fin 2 → Nat) a + S512x64.size a ≤ S512x64.size a
  h_S512x64 : 0 < S512x64.numel
  iota_S512x64x256_d2_w32 : S512x64x256.Iotas .tc 32 [2]
  shapeCasts_S512x64_S512x64x1 : S512x64.ShapeCasts S512x64x1
  broadcasts_S512x64x1_S512x64x256 : S512x64x1.Broadcasts S512x64x256
  natLt_1_32 : 1 < 32
  bitsLt_bf16_f32 : FTy.bits .bf16 < FTy.bits .f32
  shapeCasts_S512x64x256_S32768x256 : S512x64x256.ShapeCasts S32768x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  shapeCasts_S32768x2_S512x64x2 : S32768x2.ShapeCasts S512x64x2
  reduces_S512x64x2_S512x2 : S512x64x2.Reduces [1] S512x2
  reduces_S512x2_S512 : S512x2.Reduces [1] S512
  shapeCasts_S512_S512x1 : S512.ShapeCasts S512x1
  broadcasts_S512x1_S512x2 : S512x1.Broadcasts S512x2
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S512x2_o0_0_S512x1 : S512x2.Slices ![0, 0] S512x1
  broadcasts_S512x1_S512x256 : S512x1.Broadcasts S512x256
  broadcasts_S1x256_S512x256 : S1x256.Broadcasts S512x256
  slices_S512x2_o0_1_S512x1 : S512x2.Slices ![0, 1] S512x1
  inb_S512x256_S512x256_0_0 : ∀ a, (![0, 0] : Fin 2 → Nat) a + S512x256.size a ≤ S512x256.size a
  h_S512x256 : 0 < S512x256.numel
  reduces_S512x256_S512 : S512x256.Reduces [1] S512
  dot_S32768x256_S256x2_S32768x2_1_0_0_1_n_n_wf : DotDims.WF S32768x256 S256x2 S32768x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S131072x64.size a
  hwx0_0 : ∀ i : grid0.Coords, EltTy.bits .i32 = 32 ∨ (Rect.block (s := S131072x64) S512x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S131072x256.size a
  hwx0_1 : ∀ i : grid0.Coords, EltTy.bits .f32 = 32 ∨ (Rect.block (s := S131072x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S256x2.size a
  hwx0_2 : ∀ i : grid0.Coords, EltTy.bits .f32 = 32 ∨ (Rect.block (s := S256x2) S256x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S131072x256.size a
  hwx0_5 : ∀ i : grid0.Coords, EltTy.bits .f32 = 32 ∨ (Rect.block (s := S131072x256) S512x256.size (cc0_transform_5 i) (hinb0_5 i)).WholeWords (EltTy.packing .f32)

variable [Facts₀]

def dot_S32768x256_S256x2_S32768x2_1_0_0_1_n_n : DotDims S32768x256 S256x2 S32768x2 where
  lhsContracting := [1]
  rhsContracting := [0]
  lhsNonContracting := [0]
  rhsNonContracting := [1]
  lhsBatch := []
  rhsBatch := []
  wf := dot_S32768x256_S256x2_S32768x2_1_0_0_1_n_n_wf

abbrev win0_0 : Pipeline.Window sig grid0 :=
  Pipeline.Window.ofSpec (Memref.whole main_arg1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x64 : Shape := ⟨2, ![131072, 64]⟩
abbrev S256 : Shape := ⟨1, ![256]⟩
abbrev S_ : Shape := ⟨0, ![]⟩
abbrev S131072x64x1 : Shape := ⟨3, ![131072, 64, 1]⟩
abbrev S131072 : Shape := ⟨1, ![131072]⟩
abbrev S131072x1 : Shape := ⟨2, ![131072, 1]⟩
abbrev S131072x2 : Shape := ⟨2, ![131072, 2]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x64, .i32⟩
  | .hbm, ⟨2, _⟩ => ⟨S256, .f32⟩
  | .hbm, ⟨3, _⟩ => ⟨S256, .f32⟩
  | .hbm, ⟨4, _⟩ => ⟨S_, .i32⟩
  | .hbm, ⟨5, _⟩ => ⟨S131072x64, .i32⟩
  | .hbm, ⟨6, _⟩ => ⟨S131072x64, .i1⟩
  | .hbm, ⟨7, _⟩ => ⟨S_, .i32⟩
  | .hbm, ⟨8, _⟩ => ⟨S131072x64, .i32⟩
  | .hbm, ⟨9, _⟩ => ⟨S131072x64, .i32⟩
  | .hbm, ⟨10, _⟩ => ⟨S131072x64, .i32⟩
  | .hbm, ⟨11, _⟩ => ⟨S131072x64x1, .i32⟩
  | .hbm, ⟨12, _⟩ => ⟨S131072x64, .f32⟩
  | .hbm, ⟨13, _⟩ => ⟨S_, .f32⟩
  | .hbm, ⟨14, _⟩ => ⟨S131072, .f32⟩
  | .hbm, ⟨15, _⟩ => ⟨S_, .i32⟩
  | .hbm, ⟨16, _⟩ => ⟨S131072x64, .i32⟩
  | .hbm, ⟨17, _⟩ => ⟨S131072x64, .i1⟩
  | .hbm, ⟨18, _⟩ => ⟨S_, .i32⟩
  | .hbm, ⟨19, _⟩ => ⟨S131072x64, .i32⟩
  | .hbm, ⟨20, _⟩ => ⟨S131072x64, .i32⟩
  | .hbm, ⟨21, _⟩ => ⟨S131072x64, .i32⟩
  | .hbm, ⟨22, _⟩ => ⟨S131072x64x1, .i32⟩
  | .hbm, ⟨23, _⟩ => ⟨S131072x64, .f32⟩
  | .hbm, ⟨24, _⟩ => ⟨S_, .f32⟩
  | .hbm, ⟨25, _⟩ => ⟨S131072, .f32⟩
  | .hbm, ⟨26, _⟩ => ⟨S131072x1, .f32⟩
  | .hbm, ⟨27, _⟩ => ⟨S131072x1, .f32⟩
  | .hbm, ⟨28, _⟩ => ⟨S131072x2, .f32⟩
  | .hbm, ⟨29, _⟩ => ⟨S_, .f32⟩
  | .hbm, ⟨30, _⟩ => ⟨S131072, .f32⟩
  | .hbm, ⟨31, _⟩ => ⟨S_, .f32⟩
  | .hbm, ⟨32, _⟩ => ⟨S131072, .f32⟩
  | .hbm, ⟨33, _⟩ => ⟨S131072, .f32⟩
  | .hbm, ⟨34, _⟩ => ⟨S131072x1, .f32⟩
  | .hbm, ⟨35, _⟩ => ⟨S131072x2, .f32⟩
  | .hbm, ⟨36, _⟩ => ⟨S131072x2, .f32⟩
  | .hbm, ⟨37, _⟩ => ⟨S131072x2, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x2, .f32⟩
  | .hbm, ⟨42, _⟩ => ⟨S131072x2, .f32⟩
  | .hbm, ⟨43, _⟩ => ⟨S131072x1, .f32⟩
  | .hbm, ⟨44, _⟩ => ⟨S1x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x1, .f32⟩
  | .hbm, ⟨49, _⟩ => ⟨S1x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S_, .f32⟩
  | .hbm, ⟨63, _⟩ => ⟨S131072, .f32⟩
  | .hbm, ⟨64, _⟩ => ⟨S131072x1, .f32⟩
  | .hbm, ⟨65, _⟩ => ⟨S_, .f32⟩
  | .hbm, ⟨66, _⟩ => ⟨S131072x1, .f32⟩
  | .hbm, ⟨67, _⟩ => ⟨S131072x1, .f32⟩
  | .hbm, ⟨68, _⟩ => ⟨S131072x256, .f32⟩
  | .hbm, ⟨69, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  bcast_S_S131072x64 : S_.BroadcastsInDim S131072x64 (![] : Fin 0 → Fin S131072x64.rank)
  bcast_S131072x64_S131072x64x1_0_1 : S131072x64.BroadcastsInDim S131072x64x1 (![0, 1] : Fin 2 → Fin S131072x64x1.rank)
  reducesTo_S131072x64_S131072_d1 : S131072x64.ReducesTo [1] S131072
  h_S_ : 0 < S_.numel
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S131072x2_S131072_d1 : S131072x2.ReducesTo [1] S131072
  bcast_S_S131072 : S_.BroadcastsInDim S131072 (![] : Fin 0 → Fin S131072.rank)
  bcast_S131072x1_S131072x2_0_1 : S131072x1.BroadcastsInDim S131072x2 (![0, 1] : Fin 2 → Fin S131072x2.rank)
  slices_S131072x2_S131072x1_0_0 : S131072x2.Slices ![0, 0] S131072x1
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  slices_S131072x2_S131072x1_0_1 : S131072x2.Slices ![0, 1] S131072x1
  bcast_S_S131072x256 : S_.BroadcastsInDim S131072x256 (![] : Fin 0 → Fin S131072x256.rank)
  reducesTo_S131072x256_S131072_d1 : S131072x256.ReducesTo [1] S131072
  bcast_S_S131072x1 : S_.BroadcastsInDim S131072x1 (![] : Fin 0 → Fin S131072x1.rank)
  gather_S256_S131072x64x1_S131072x64_n_0_n_n_0_2_1_wf : GatherDims.WF S256 S131072x64x1 S131072x64 [] [0] [] [0] [] 2 ![1]

variable [Facts₀]

def gather_S256_S131072x64x1_S131072x64_n_0_n_n_0_2_1 : GatherDims S256 S131072x64x1 S131072x64 where
  offsetDims := []
  collapsedSliceDims := [0]
  operandBatchingDims := []
  startIndicesBatchingDims := []
  startIndexMap := [0]
  indexVectorDim := 2
  sliceSizes := ![1]
  wf := gather_S256_S131072x64x1_S131072x64_n_0_n_n_0_2_1_wf

class Facts : Prop extends Facts₀ where

variable [Facts]
-- ==== Proof.Range.lean ====
/-
  What the precondition says of the previous-character codes: every code, read as a signed integer, is at least 0 and
  below 256, so its unsigned value is below 256 — the code is a position in the two 256-entry tables.

  The precondition is a conjunction of five all-reductions (three finiteness tests, then "every code ≥ 0" and
  "every code < 256"); a conjunction of one-bit words is 1 only if both are, and an all-reduction is 1 only if every
  element is.
-/
import proofs.«404544_j79663053406447_1_alg».proof.Pre_finite_inputs
import Idealize.ShloMosaic.Lib.ReduceAll
import Idealize.ShloMosaic.Lib.ValueIdx

noncomputable section

namespace Cert.Harmony.Range

open Idealize.ShloMosaic

/-- A word that is ≥ 0 and < 256 as a signed integer has unsigned value below 256. -/
theorem toNat_lt_256 (w : BitVec 32) (h0 : IntOp.cmpi .sge w 0#32 = 1#1) (h1 : IntOp.cmpi .slt w 256#32 = 1#1) :
    w.toNat < 256 := by
  unfold IntOp.cmpi at h0 h1
  have b0 : ∀ b : Bool, BitVec.ofBool b = 1#1 → b = true := by decide
  have g0 := b0 _ h0
  have g1 := b0 _ h1
  simp only [BitVec.slt, BitVec.sle, decide_eq_true_eq] at g0 g1
  have hw := w.isLt
  unfold BitVec.toInt at g0 g1
  split at g1 <;> simp at g0 g1 <;> omega

/-- The rank-0 shape has one index. -/
instance : Subsingleton Cert.Pre_finite_inputs.S_.Idx := ⟨fun a b => funext fun d => d.elim0⟩

variable {F : FTy → Type} [FloatOps F] [Cert.Pre_finite_inputs.Facts]

/-- THE PRECONDITION DECODED: every previous-character code is below 256. -/
theorem codes_lt (a0 : FVec F Cert.Pre_finite_inputs.S131072x256 .f32) (a1 : IVec Cert.Pre_finite_inputs.S131072x64 32)
    (a2 a3 : FVec F Cert.Pre_finite_inputs.S256 .f32)
    (h : Cert.Pre_finite_inputs.fn (F := F) a0 a1 a2 a3 = fun _ => 1#1) (i : Cert.Pre_finite_inputs.S131072x64.Idx) :
    (a1 i).toNat < 256 := by
  have e := congrFun h ValueIdx.ix0
  unfold Cert.Pre_finite_inputs.fn at e
  dsimp only at e
  unfold Cert.Pre_finite_inputs.fn_part1 at e
  dsimp only at e
  obtain ⟨e1, hlt⟩ := IntOp.andi_eq_one.1 e
  obtain ⟨-, hge⟩ := IntOp.andi_eq_one.1 e1
  have g0 := Host.reduce_andi_all _ _ _ _ _ hge i
  have g1 := Host.reduce_andi_all _ _ _ _ _ hlt i
  exact toNat_lt_256 _ g0 g1

end Cert.Harmony.Range

end
-- ==== Proof.Spec.lean ====
/-
  The mathematics both programs compute, as one function of the four argument arrays, index by index, on the
  extended reals.

  For a row b: the two harmony scores are the sums, over the row's 64 previous characters, of the front table and of
  the back table at the character's code; the two shares are the softmax of the pair of scores (each score less the
  pair's maximum, exponentiated, over the sum of the two exponentials); a column's blended value is
  half the distribution's entry plus half the share-weighted table entry times the distribution's entry; the
  result is the blended value over the row's total of blended values plus a small constant.

  The float literals stay as their words read at the ideal instance: the same word stands on both sides and is never
  evaluated, except minus infinity, the seed of the maximum, which is the bottom element.
-/
import Idealize.ShloMosaic.PureOps.Ideal.Laws
import Idealize.ShloMosaic.Lib.ValueIdx

noncomputable section

namespace Cert.Harmony

open Idealize.ShloMosaic Idealize.ShloMosaic.ValueIdx

/-- The array shapes: rows by vocabulary, rows by history length, vocabulary. -/
abbrev SRowsV : Shape := ⟨2, ![131072, 256]⟩
abbrev SRowsS : Shape := ⟨2, ![131072, 64]⟩
abbrev SVoc : Shape := ⟨1, ![256]⟩

/-- One half and the small constant added to a row's total, as the words both programs carry. -/
abbrev half : EReal := Ideal.ofBits .f32 0x3F000000#32
abbrev tiny : EReal := Ideal.ofBits .f32 0x2EDBE6FF#32

/-- The word of minus infinity is the bottom of the extended reals. -/
theorem negInf_eq_bot : Ideal.ofBits .f32 0xFF800000#32 = (⊥ : EReal) := by
  simp [Ideal.ofBits, Ideal.ieee]

/-- A table read at a character code (the code's value, reduced into the table's range so that the read is total). -/
def look (tab : SVoc.Idx → EReal) (w : BitVec 32) : EReal :=
  tab (ix1 ⟨w.toNat % 256, Nat.mod_lt _ (by decide)⟩)

/-- A row's score against a table: the table summed over the row's previous characters. -/
def score (tab : SVoc.Idx → EReal) (prev : SRowsS.Idx → BitVec 32) (b : Fin 131072) : EReal :=
  ∑ s : Fin 64, look tab (prev (ix2 b s))

/-- The softmax share of the score h in the pair (h0, h1). -/
def share (h h0 h1 : EReal) : EReal :=
  Ideal.div (Ideal.exp (h - max h0 h1)) (Ideal.exp (h0 - max h0 h1) + Ideal.exp (h1 - max h0 h1))

/-- A column's blended value from the two shares, the two table entries and the distribution's entry. -/
def blend (p0 p1 f b d : EReal) : EReal :=
  half * d + half * (p0 * f + p1 * b) * d

/-- Row b's blended value at column v. -/
def row (dist : SRowsV.Idx → EReal) (prev : SRowsS.Idx → BitVec 32) (fm bm : SVoc.Idx → EReal)
    (b : Fin 131072) (v : Fin 256) : EReal :=
  blend (share (score fm prev b) (score fm prev b) (score bm prev b))
    (share (score bm prev b) (score fm prev b) (score bm prev b))
    (fm (ix1 v)) (bm (ix1 v)) (dist (ix2 b v))

/-- THE RESULT: each blended value over its row's total plus the small constant. -/
def G (dist : SRowsV.Idx → EReal) (prev : SRowsS.Idx → BitVec 32) (fm bm : SVoc.Idx → EReal) : SRowsV.Idx → EReal :=
  fun i => Ideal.div (row dist prev fm bm (i 0) (i 1)) ((∑ v : Fin 256, row dist prev fm bm (i 0) v) + tiny)

/-- A fold of a commutative, associative operation over a pair's two positions, written out. -/
theorem fold_pair {α : Type} (op : α → α → α) [Std.Commutative op] [Std.Associative op] (i : α) (f : Fin 2 → α) :
    (Finset.univ : Finset (Fin 2)).fold op i f = op (f 0) (op (f 1) i) := by
  rw [show (Finset.univ : Finset (Fin 2)) = insert 0 {1} from by decide]
  rw [Finset.fold_insert (by decide), Finset.fold_singleton]

/-- Folding max from the bottom element over a pair, then once more against the bottom element, is the pair's maximum. -/
theorem max_bot_pair (a b : EReal) : max ⊥ (max a (max b ⊥)) = max a b := by simp
theorem max_pair_bot (a b : EReal) : max a (max b ⊥) = max a b := by simp

/-- A code below 256 reads the table at itself. -/
theorem look_of_lt (tab : SVoc.Idx → EReal) (w : BitVec 32) (hw : w.toNat < 256) :
    look tab w = tab (ix1 ⟨w.toNat, hw⟩) := by
  unfold look
  congr 2
  exact Fin.ext (Nat.mod_eq_of_lt hw)

end Cert.Harmony

end
-- ==== Proof.RefScores.lean ====
/-
  The reference's harmony scores. With every previous-character code in [0, 256): the code is not negative, so the
  wrap-around of negative positions leaves it as it is; the gather's clamp into the table leaves it as it is; so the
  gathered entry is the table at the code, and the row sum (from the zero word) is the row's score.
-/
import proofs.«404544_j79663053406447_1_alg».proof.Proof.Gen.ReferenceIdeal.Read
import proofs.«404544_j79663053406447_1_alg».proof.Proof.Spec
import Idealize.ShloMosaic.Lib.StableHlo.Predicate

noncomputable section

namespace Cert.ReferenceIdeal.RefValue

open Cert.ReferenceIdeal Cert.ReferenceIdeal.Read Cert.Harmony Idealize.ShloMosaic Idealize.ShloMosaic.ValueIdx

/-- A code below 256 is not negative as a signed integer. -/
theorem slt_zero_of_lt (w : BitVec 32) (hw : w.toNat < 256) : IntOp.cmpi .slt w 0#32 = 0#1 := by
  unfold IntOp.cmpi
  have h1 : w.toInt = w.toNat := StableHlo.Predicate.toInt_eq_toNat_of_lt (by omega)
  have h2 : ¬ ((w.toNat : ℤ) < 0) := by omega
  simp [BitVec.slt, h1, h2]

/-- A code below 256, read signed and clamped into the table, is itself. -/
theorem clamp_of_lt (w : BitVec 32) (hw : w.toNat < 256) : min w.toInt.toNat (256 - 1) = w.toNat := by
  have h1 : w.toInt = w.toNat := StableHlo.Predicate.toInt_eq_toNat_of_lt (by omega)
  rw [h1]; simp; omega

variable (x1 : (⟨S131072x64, .i32⟩ : BufTy).Contents (Elt Ideal)) (x2 x3 : (⟨S256, .f32⟩ : BufTy).Contents (Elt Ideal))
variable (hin : ∀ i : S131072x64.Idx, (x1 i).toNat < 256)

include hin in
/-- The position the front table is read at is the code itself. -/
theorem norm_front (j : S131072x64.Idx) : val_main_v4 (F := Ideal) x1 j = x1 j := by
  rw [val_main_v4_apply, val_main_v1_apply, val_main_v0_apply, val_main_c_apply, slt_zero_of_lt _ (hin j)]
  exact select_zero _ _

include hin in
/-- The position the back table is read at is the code itself. -/
theorem norm_back (j : S131072x64.Idx) : val_main_v12 (F := Ideal) x1 j = x1 j := by
  rw [val_main_v12_apply, val_main_v9_apply, val_main_v8_apply, val_main_c_1_apply, slt_zero_of_lt _ (hin j)]
  exact select_zero _ _

/-- The start-index position of result position y is y with a unit coordinate appended. -/
theorem take_idx5 (y : S131072x64.Idx) : idx_main_v5 (takeIdx y) = y := by
  funext a; exact Fin.ext (by match a with | ⟨0, _⟩ => rfl | ⟨1, _⟩ => rfl)
theorem take_idx13 (y : S131072x64.Idx) : idx_main_v13 (takeIdx y) = y := by
  funext a; exact Fin.ext (by match a with | ⟨0, _⟩ => rfl | ⟨1, _⟩ => rfl)

include hin in
/-- The gathered front-table entry is the table at the code. -/
theorem gathered_front (y : S131072x64.Idx) : val_main_v6 (F := Ideal) x1 x2 y = look x2 (x1 y) := by
  unfold val_main_v6
  refine (gather_take_apply (N := 256) (R := 131072) (C := 64) (by decide) Facts₀.gather_S256_S131072x64x1_S131072x64_n_0_n_n_0_2_1_wf x2 _ y).trans ?_
  have hv : val_main_v5 (F := Ideal) x1 (takeIdx y) = x1 y := by
    rw [val_main_v5_apply, take_idx5, norm_front x1 hin y]
  rw [look_of_lt _ _ (hin y)]
  congr 2
  apply Fin.ext
  show min (val_main_v5 (F := Ideal) x1 (takeIdx y)).toInt.toNat (256 - 1) = (x1 y).toNat
  rw [hv]
  exact clamp_of_lt _ (hin y)

include hin in
/-- The gathered back-table entry is the table at the code. -/
theorem gathered_back (y : S131072x64.Idx) : val_main_v14 (F := Ideal) x1 x3 y = look x3 (x1 y) := by
  unfold val_main_v14
  refine (gather_take_apply (N := 256) (R := 131072) (C := 64) (by decide) Facts₀.gather_S256_S131072x64x1_S131072x64_n_0_n_n_0_2_1_wf x3 _ y).trans ?_
  have hv : val_main_v13 (F := Ideal) x1 (takeIdx y) = x1 y := by
    rw [val_main_v13_apply, take_idx13, norm_back x1 hin y]
  rw [look_of_lt _ _ (hin y)]
  congr 2
  apply Fin.ext
  show min (val_main_v13 (F := Ideal) x1 (takeIdx y)).toInt.toNat (256 - 1) = (x1 y).toNat
  rw [hv]
  exact clamp_of_lt _ (hin y)

/-- Row b's position k of the history, as the row sum names it. -/
theorem idx7_eq (b : Fin 131072) (k : Fin 64) : idx_main_v7 (ix1 b) k = ix2 b k := by
  funext a; exact Fin.ext (by match a with | ⟨0, _⟩ => rfl | ⟨1, _⟩ => rfl)
theorem idx15_eq (b : Fin 131072) (k : Fin 64) : idx_main_v15 (ix1 b) k = ix2 b k := by
  funext a; exact Fin.ext (by match a with | ⟨0, _⟩ => rfl | ⟨1, _⟩ => rfl)

include hin in
/-- The front row sum is the row's front score. -/
theorem front_score (b : Fin 131072) : val_main_v7 (F := Ideal) x1 x2 (ix1 b) = score x2 x1 b := by
  rw [val_main_v7_apply, val_main_cst_apply]
  show Ideal.ofBits .f32 0x00000000#32 + _ = _
  rw [Ideal.ofBits_zero_f32, zero_add]
  unfold score
  exact Finset.sum_congr rfl fun k _ => by rw [idx7_eq, gathered_front x1 x2 hin]

include hin in
/-- The back row sum is the row's back score. -/
theorem back_score (b : Fin 131072) : val_main_v15 (F := Ideal) x1 x3 (ix1 b) = score x3 x1 b := by
  rw [val_main_v15_apply, val_main_cst_3_apply]
  show Ideal.ofBits .f32 0x00000000#32 + _ = _
  rw [Ideal.ofBits_zero_f32, zero_add]
  unfold score
  exact Finset.sum_congr rfl fun k _ => by rw [idx15_eq, gathered_back x1 x3 hin]

end Cert.ReferenceIdeal.RefValue

end
-- ==== Proof.RefValue.lean ====
/-
  The reference's result is the specification G. After the two scores (the module of the scores): the pair of scores
  side by side; the pair's maximum (a fold of max from minus infinity over the two positions, then once more against
  minus infinity: the maximum of the two); the exponentials of the scores less the maximum; their sum from the zero
  word; the shares; the share-weighted table rows; the blended values; the row total from the zero word plus the
  small constant; the quotient.
-/
import proofs.«404544_j79663053406447_1_alg».proof.Proof.RefScores

noncomputable section

namespace Cert.ReferenceIdeal.RefValue

open Cert.ReferenceIdeal Cert.ReferenceIdeal.Read Cert.Harmony Idealize.ShloMosaic Idealize.ShloMosaic.ValueIdx

/-- Two index functions with the same coordinates are equal (rank two, rank one). -/
local macro "coords2" : tactic => `(tactic| (funext a; exact Fin.ext (by match a with | ⟨0, _⟩ => rfl | ⟨1, _⟩ => rfl)))
local macro "coords1" : tactic => `(tactic| (funext a; exact Fin.ext (by match a with | ⟨0, _⟩ => rfl)))

/-- The pair of scores reduces along its second axis. -/
theorem pairReduces : S131072x2.Reduces [1] S131072 := by decide

variable (x0 : (⟨S131072x256, .f32⟩ : BufTy).Contents (Elt Ideal))
variable (x1 : (⟨S131072x64, .i32⟩ : BufTy).Contents (Elt Ideal)) (x2 x3 : (⟨S256, .f32⟩ : BufTy).Contents (Elt Ideal))
variable (hin : ∀ i : S131072x64.Idx, (x1 i).toNat < 256)

include hin in
/-- The pair's first position holds the front score. -/
theorem pair_front (b : Fin 131072) : val_main_v18 (F := Ideal) x1 x2 x3 (ix2 b (0 : Fin 2)) = score x2 x1 b := by
  unfold val_main_v18
  refine (concatenate_pair_apply_left (t := S131072x2) (s₁ := S131072x1) (s₂ := S131072x1) (1 : Fin 2)
    (val_main_v16 (F := Ideal) x1 x2) (val_main_v17 (F := Ideal) x1 x3)
    Facts₀.concatenates_S131072x1_S131072x1_S131072x2_d1 (ix2 b (0 : Fin 2)) rfl
    (ix2 b (0 : Fin 1)) (fun a => by match a with | ⟨0, _⟩ => rfl | ⟨1, _⟩ => rfl)).trans ?_
  rw [val_main_v16_apply, show idx_main_v16 (ix2 b (0 : Fin 1)) = ix1 b from by coords1]
  exact front_score x1 x2 hin b

include hin in
/-- The pair's second position holds the back score. -/
theorem pair_back (b : Fin 131072) : val_main_v18 (F := Ideal) x1 x2 x3 (ix2 b (1 : Fin 2)) = score x3 x1 b := by
  unfold val_main_v18
  refine (concatenate_pair_apply_right (t := S131072x2) (s₁ := S131072x1) (s₂ := S131072x1) (1 : Fin 2)
    (val_main_v16 (F := Ideal) x1 x2) (val_main_v17 (F := Ideal) x1 x3)
    Facts₀.concatenates_S131072x1_S131072x1_S131072x2_d1 (ix2 b (1 : Fin 2)) rfl rfl
    (ix2 b (0 : Fin 1)) (fun a ha => by match a with | ⟨0, _⟩ => rfl | ⟨1, _⟩ => exact absurd rfl ha) rfl).trans ?_
  rw [val_main_v17_apply, show idx_main_v17 (ix2 b (0 : Fin 1)) = ix1 b from by coords1]
  exact back_score x1 x3 hin b

include hin in
/-- The maximum stage is the maximum of the two scores. -/
theorem top_eq (b : Fin 131072) :
    val_main_v21 (F := Ideal) x1 x2 x3 (ix1 b) = max (score x2 x1 b) (score x3 x1 b) := by
  rw [val_main_v21_apply, val_main_v20_apply, val_main_cst_5_apply]
  unfold val_main_v19
  rw [Host.reduce_eq_fold_single FloatOps.maximumf _ _ Facts₀.reducesTo_S131072x2_S131072_d1 pairReduces Facts₀.h_S_]
  refine (congrArg (FloatOps.maximumf (F := Ideal) (φ := .f32) (FloatOps.ofBits FTy.f32 0xFF800000#32))
    (fold_pair (α := Ideal .f32) FloatOps.maximumf (val_main_cst_4 (F := Ideal) (Shape.Idx.first Facts₀.h_S_))
      (val_main_v18 (F := Ideal) x1 x2 x3 ∘ pairReduces.lift (ix1 b) : Fin 2 → Ideal .f32))).trans ?_
  show max (Ideal.ofBits .f32 0xFF800000#32)
    (max (val_main_v18 (F := Ideal) x1 x2 x3 (pairReduces.lift (ix1 b) (0 : Fin 2)))
      (max (val_main_v18 (F := Ideal) x1 x2 x3 (pairReduces.lift (ix1 b) (1 : Fin 2))) (Ideal.ofBits .f32 0xFF800000#32))) = _
  rw [negInf_eq_bot,
    show pairReduces.lift (ix1 b) (0 : Fin 2) = ix2 b (0 : Fin 2) from by coords2,
    show pairReduces.lift (ix1 b) (1 : Fin 2) = ix2 b (1 : Fin 2) from by coords2,
    pair_front x1 x2 x3 hin, pair_back x1 x2 x3 hin]
  exact max_bot_pair _ _

include hin in
/-- The exponential stage: a score less the pair's maximum, exponentiated. -/
theorem expo_eq (b : Fin 131072) (c : Fin 2) :
    val_main_v25 (F := Ideal) x1 x2 x3 (ix2 b c)
      = Ideal.exp (val_main_v18 (F := Ideal) x1 x2 x3 (ix2 b c) - max (score x2 x1 b) (score x3 x1 b)) := by
  rw [val_main_v25_apply, val_main_v24_apply, val_main_v23_apply, val_main_v22_apply,
    show idx_main_v22 (idx_main_v23 (ix2 b c)) = ix1 b from by coords1, top_eq x1 x2 x3 hin b]
  rfl

include hin in
/-- The sum stage: the two exponentials added. -/
theorem denom_eq (b : Fin 131072) :
    val_main_v26 (F := Ideal) x1 x2 x3 (ix1 b)
      = Ideal.exp (score x2 x1 b - max (score x2 x1 b) (score x3 x1 b)) + Ideal.exp (score x3 x1 b - max (score x2 x1 b) (score x3 x1 b)) := by
  rw [val_main_v26_apply, val_main_cst_6_apply]
  show Ideal.ofBits .f32 0x00000000#32 + _ = _
  rw [Ideal.ofBits_zero_f32, zero_add, Fin.sum_univ_two,
    show idx_main_v26 (ix1 b) (0 : Fin 2) = ix2 b (0 : Fin 2) from by coords2,
    show idx_main_v26 (ix1 b) (1 : Fin 2) = ix2 b (1 : Fin 2) from by coords2,
    expo_eq x1 x2 x3 hin, expo_eq x1 x2 x3 hin, pair_front x1 x2 x3 hin, pair_back x1 x2 x3 hin]

include hin in
/-- The quotient stage at the first position: the front score's share. -/
theorem share_front (b : Fin 131072) :
    val_main_v29 (F := Ideal) x1 x2 x3 (ix2 b (0 : Fin 2)) = share (score x2 x1 b) (score x2 x1 b) (score x3 x1 b) := by
  rw [val_main_v29_apply, val_main_v28_apply, val_main_v27_apply,
    show idx_main_v27 (idx_main_v28 (ix2 b (0 : Fin 2))) = ix1 b from by coords1,
    expo_eq x1 x2 x3 hin, denom_eq x1 x2 x3 hin, pair_front x1 x2 x3 hin]
  rfl

include hin in
/-- The quotient stage at the second position: the back score's share. -/
theorem share_back (b : Fin 131072) :
    val_main_v29 (F := Ideal) x1 x2 x3 (ix2 b (1 : Fin 2)) = share (score x3 x1 b) (score x2 x1 b) (score x3 x1 b) := by
  rw [val_main_v29_apply, val_main_v28_apply, val_main_v27_apply,
    show idx_main_v27 (idx_main_v28 (ix2 b (1 : Fin 2))) = ix1 b from by coords1,
    expo_eq x1 x2 x3 hin, denom_eq x1 x2 x3 hin, pair_back x1 x2 x3 hin]
  rfl

include hin in
/-- The blended stage is the specification's row. -/
theorem blended_eq (b : Fin 131072) (v : Fin 256) :
    val_main_v46 (F := Ideal) x0 x1 x2 x3 (ix2 b v) = row x0 x1 x2 x3 b v := by
  rw [val_main_v46_apply, val_main_v42_apply, val_main_v41_apply, val_main_cst_7_apply,
    val_main_v45_apply, val_main_v44_apply, val_main_v43_apply, val_main_cst_8_apply,
    val_main_v40_apply, val_main_v34_apply, val_main_v39_apply,
    val_main_v32_apply, val_main_v30_apply, val_main_v33_apply, val_main_v31_apply,
    val_main_v37_apply, val_main_v35_apply, val_main_v38_apply, val_main_v36_apply,
    show idx_main_v30 (idx_main_v32 (ix2 b v)) = ix2 b (0 : Fin 2) from by coords2,
    show idx_main_v35 (idx_main_v37 (ix2 b v)) = ix2 b (1 : Fin 2) from by coords2,
    show idx_main_v31 (idx_main_v33 (ix2 b v)) = ix1 v from by coords1,
    show idx_main_v36 (idx_main_v38 (ix2 b v)) = ix1 v from by coords1,
    share_front x1 x2 x3 hin, share_back x1 x2 x3 hin]
  rfl

include hin in
/-- The row-total stage: the row's blended values summed. -/
theorem total_eq (b : Fin 131072) :
    val_main_v47 (F := Ideal) x0 x1 x2 x3 (ix1 b) = ∑ v : Fin 256, row x0 x1 x2 x3 b v := by
  rw [val_main_v47_apply, val_main_cst_9_apply]
  show Ideal.ofBits .f32 0x00000000#32 + _ = _
  rw [Ideal.ofBits_zero_f32, zero_add]
  exact Finset.sum_congr rfl fun k _ => by
    rw [show idx_main_v47 (ix1 b) k = ix2 b k from by coords2, blended_eq x0 x1 x2 x3 hin]

include hin in
/-- THE REFERENCE'S RESULT IS G. -/
theorem result_eq : val_main_v52 (F := Ideal) x0 x1 x2 x3 = G x0 x1 x2 x3 := by
  funext i
  obtain ⟨b, v, rfl⟩ : ∃ (b : Fin 131072) (v : Fin 256), i = ix2 b v := ⟨i 0, i 1, eq_ix2 i⟩
  rw [val_main_v52_apply, val_main_v51_apply, val_main_v50_apply, val_main_v48_apply, val_main_v49_apply, val_main_cst_10_apply,
    show idx_main_v48 (idx_main_v51 (ix2 b v)) = ix1 b from by coords1,
    blended_eq x0 x1 x2 x3 hin, total_eq x0 x1 x2 x3 hin]
  rfl

end Cert.ReferenceIdeal.RefValue

end
-- ==== Proof.KernelScores.lean ====
/-
  The kernel's harmony scores. The body compares each previous-character code of a 512-row block with every
  vocabulary position (a one-hot row of zeros and a single one, as floats), multiplies the 32768 × 256 one-hot matrix
  by the 256 × 2 table whose columns are the front and the back table, and sums the products over each row's 64
  history positions. A one-hot row times a table column picks the table's entry at the code; so, with every code in
  [0, 256), an entry of the 512 × 2 result is the row's score against that column.
-/
import proofs.«404544_j79663053406447_1_alg».proof.Proof.Gen.KernelIdeal.Skeleton
import proofs.«404544_j79663053406447_1_alg».proof.Proof.Spec
import Idealize.ShloMosaic.Lib.Pipeline.Value

noncomputable section

namespace Cert.KernelIdeal.KValue

open Cert.KernelIdeal Cert.KernelIdeal.Gen Cert.Harmony Idealize.ShloMosaic Idealize.ShloMosaic.ValueIdx

local macro "coords3" : tactic => `(tactic| (funext a; exact Fin.ext (by match a with | ⟨0, _⟩ => rfl | ⟨1, _⟩ => rfl | ⟨2, _⟩ => rfl)))
local macro "coords2" : tactic => `(tactic| (funext a; exact Fin.ext (by match a with | ⟨0, _⟩ => rfl | ⟨1, _⟩ => rfl)))

/-! ## The product's operand positions -/

theorem lhs_row (j : S32768x2.Idx) (k : dot_S32768x256_S256x2_S32768x2_1_0_0_1_n_n.contr.Idx) :
    (dot_S32768x256_S256x2_S32768x2_1_0_0_1_n_n.lhsIdx j k (0 : Fin 2)).val = (j 0).val := rfl
theorem lhs_col (j : S32768x2.Idx) (k : dot_S32768x256_S256x2_S32768x2_1_0_0_1_n_n.contr.Idx) :
    (dot_S32768x256_S256x2_S32768x2_1_0_0_1_n_n.lhsIdx j k (1 : Fin 2)).val = (k ⟨0, by decide⟩).val :=
  dot_S32768x256_S256x2_S32768x2_1_0_0_1_n_n.lhsIdx_val_of_single rfl j k
theorem rhs_row (j : S32768x2.Idx) (k : dot_S32768x256_S256x2_S32768x2_1_0_0_1_n_n.contr.Idx) :
    (dot_S32768x256_S256x2_S32768x2_1_0_0_1_n_n.rhsIdx j k (0 : Fin 2)).val = (k ⟨0, by decide⟩).val :=
  dot_S32768x256_S256x2_S32768x2_1_0_0_1_n_n.rhsIdx_val_of_single rfl j k
theorem rhs_col (j : S32768x2.Idx) (k : dot_S32768x256_S256x2_S32768x2_1_0_0_1_n_n.contr.Idx) :
    (dot_S32768x256_S256x2_S32768x2_1_0_0_1_n_n.rhsIdx j k (1 : Fin 2)).val = (j 1).val := rfl

/-- The product into the zero accumulator, at (r, c): the sum over the 256 contracted positions of the left row's
    entry times the right column's entry. -/
theorem product_at (L : FVec Ideal S32768x256 .bf16) (R : FVec Ideal S256x2 .bf16) (r : Fin 32768) (c : Fin 2) :
    matmul dot_S32768x256_S256x2_S32768x2_1_0_0_1_n_n none L R (constant S32768x2 .f32 0x00000000#32) (ix2 r c)
      = ∑ k : Fin 256, L (ix2 r k) * R (ix2 k c) := by
  show FloatOps.matmul dot_S32768x256_S256x2_S32768x2_1_0_0_1_n_n none L R (constant S32768x2 .f32 0x00000000#32) (ix2 r c) = _
  rw [Ideal.matmul_constant_zero_apply, ← Equiv.sum_comp (contrEquiv1 dot_S32768x256_S256x2_S32768x2_1_0_0_1_n_n 256 rfl rfl).symm]
  refine Finset.sum_congr rfl fun k _ => ?_
  refine congrArg₂ (· * ·) (congrArg L ?_) (congrArg R ?_)
  · funext a; apply Fin.ext
    match a with
    | ⟨0, _⟩ => exact lhs_row _ _
    | ⟨1, _⟩ => exact (lhs_col _ _).trans (contrEquiv1_symm_val dot_S32768x256_S256x2_S32768x2_1_0_0_1_n_n 256 rfl rfl k)
  · funext a; apply Fin.ext
    match a with
    | ⟨0, _⟩ => exact (rhs_row _ _).trans (contrEquiv1_symm_val dot_S32768x256_S256x2_S32768x2_1_0_0_1_n_n 256 rfl rfl k)
    | ⟨1, _⟩ => exact rhs_col _ _

/-! ## A one-hot row against a table column -/

/-- The one-hot entry of code w at vocabulary position k: the comparison bit, widened and read as a float. -/
def hot (w : BitVec 32) (k : Fin 256) : EReal :=
  FloatOps.sitofp (F := Ideal) .f32 ((IntOp.cmpi .eq w (BitVec.ofNat 32 k.val)).setWidth 32)

theorem hot_self (w : BitVec 32) (hw : w.toNat < 256) : hot w ⟨w.toNat, hw⟩ = 1 := by
  unfold hot
  have e : BitVec.ofNat 32 w.toNat = w := by
    apply BitVec.eq_of_toNat_eq; rw [BitVec.toNat_ofNat]; exact Nat.mod_eq_of_lt w.isLt
  show FloatOps.sitofp (F := Ideal) .f32 ((IntOp.cmpi .eq w (BitVec.ofNat 32 w.toNat)).setWidth 32) = 1
  rw [e]
  have : IntOp.cmpi .eq w w = 1#1 := by simp [IntOp.cmpi]
  rw [this]
  show (((BitVec.setWidth 32 (1#1)).toInt : ℝ) : EReal) = 1
  have : (BitVec.setWidth 32 (1#1)).toInt = 1 := by decide
  rw [this]; simp

theorem hot_other (w : BitVec 32) (k : Fin 256) (h : k.val ≠ w.toNat) : hot w k = 0 := by
  unfold hot
  have hne : w ≠ BitVec.ofNat 32 k.val := by
    intro e
    apply h
    have := congrArg BitVec.toNat e
    rw [BitVec.toNat_ofNat, Nat.mod_eq_of_lt (by have := k.isLt; omega)] at this
    exact this.symm
  have : IntOp.cmpi .eq w (BitVec.ofNat 32 k.val) = 0#1 := by
    simp only [IntOp.cmpi]; rw [beq_eq_false_iff_ne.mpr hne]; rfl
  rw [this]
  show (((BitVec.setWidth 32 (0#1)).toInt : ℝ) : EReal) = 0
  have : (BitVec.setWidth 32 (0#1)).toInt = 0 := by decide
  rw [this]; simp

/-- A one-hot row times a table column is the table's entry at the code. -/
theorem hot_sum (w : BitVec 32) (hw : w.toNat < 256) (tab : Fin 256 → EReal) :
    ∑ k : Fin 256, hot w k * tab k = tab ⟨w.toNat, hw⟩ := by
  rw [Finset.sum_eq_single (⟨w.toNat, hw⟩ : Fin 256)
    (fun k _ hk => by rw [hot_other w k (fun e => hk (Fin.ext e)), zero_mul])
    (fun h => absurd (Finset.mem_univ _) h), hot_self w hw, one_mul]

/-! ## The 512 × 2 block of scores -/

/-- The scores the body computes from a block of codes and the table: the printed operations, named. -/
def counts (P1 : Vec Ideal S512x64 .i32) (P2 : Vec Ideal S256x2 .f32) : FVec Ideal S512x2 .f32 :=
  multiReduction .add [1] S512x2
    (shapeCast S512x64x2
      (matmul dot_S32768x256_S256x2_S32768x2_1_0_0_1_n_n none
        (shapeCast S32768x256
          (truncf .bf16 (sitofp .f32 (extui 32 (cmpi .eq
            (broadcastTo S512x64x256 (shapeCast S512x64x1 P1 shapeCasts_S512x64_S512x64x1) broadcasts_S512x64x1_S512x64x256)
            (iota .tc S512x64x256 32 [2] iota_S512x64x256_d2_w32)) natLt_1_32)) bitsLt_bf16_f32)
          shapeCasts_S512x64x256_S32768x256)
        (truncf .bf16 (shapeCast S256x2 P2 shapeCasts_S256x2_S256x2) bitsLt_bf16_f32)
        (constant S32768x2 .f32 0x00000000#32))
      shapeCasts_S32768x2_S512x64x2)
    0x00000000#32 reduces_S512x64x2_S512x2 (.inl rfl) rfl

variable (P1 : Vec Ideal S512x64 .i32) (P2 : Vec Ideal S256x2 .f32)

/-- The one-hot matrix at (row p, history position s, vocabulary position k). -/
theorem onehot_at (p : Fin 512) (s : Fin 64) (k : Fin 256) :
    (truncf .bf16 (sitofp .f32 (extui 32 (cmpi .eq
        (broadcastTo S512x64x256 (shapeCast S512x64x1 P1 shapeCasts_S512x64_S512x64x1) broadcasts_S512x64x1_S512x64x256)
        (iota .tc S512x64x256 32 [2] iota_S512x64x256_d2_w32)) natLt_1_32)) bitsLt_bf16_f32 : FVec Ideal S512x64x256 .bf16) (ix3 p s k)
      = hot (P1 (ix2 p s)) k := by
  have hb : broadcastTo S512x64x256 (shapeCast S512x64x1 P1 shapeCasts_S512x64_S512x64x1) broadcasts_S512x64x1_S512x64x256 (ix3 p s k)
      = P1 (ix2 p s) := by
    refine (broadcastTo_apply _ _ (ix3 p s k) (ix3 p s (0 : Fin 1)) (fun a => by
      match a with
      | ⟨0, _⟩ => show p.val = if (512 : Nat) = 1 then 0 else p.val; rw [if_neg (by decide)]
      | ⟨1, _⟩ => show s.val = if (64 : Nat) = 1 then 0 else s.val; rw [if_neg (by decide)]
      | ⟨2, _⟩ => show 0 = if (1 : Nat) = 1 then 0 else k.val; rw [if_pos rfl])).trans ?_
    exact shapeCast_apply _ _ (ix3 p s (0 : Fin 1)) (ix2 p s) (by
      rw [Shape.rowMajor_val_two, Shape.rowMajor_val_three]
      show p.val * 64 + s.val = (p.val * 64 + s.val) * 1 + 0; omega)
  have hi : iota .tc S512x64x256 32 [2] iota_S512x64x256_d2_w32 (ix3 p s k) = BitVec.ofNat 32 k.val := by
    show BitVec.ofNat 32 (0 * 256 + k.val) = _
    rw [Nat.zero_mul, Nat.zero_add]
  show FloatOps.sitofp (F := Ideal) .f32 ((IntOp.cmpi .eq
      (broadcastTo S512x64x256 (shapeCast S512x64x1 P1 shapeCasts_S512x64_S512x64x1) broadcasts_S512x64x1_S512x64x256 (ix3 p s k))
      (iota .tc S512x64x256 32 [2] iota_S512x64x256_d2_w32 (ix3 p s k))).setWidth 32) = _
  rw [hb, hi]
  rfl

/-- THE SCORES: with every code of the block below 256, entry (p, c) is row p's sum of column c of the table at the
    row's codes. -/
theorem counts_at (hP1 : ∀ y : S512x64.Idx, (P1 y).toNat < 256) (p : Fin 512) (c : Fin 2) :
    counts P1 P2 (ix2 p c) = ∑ s : Fin 64, P2 (ix2 ⟨(P1 (ix2 p s)).toNat, hP1 _⟩ c) := by
  unfold counts
  refine (Ideal.multiReduction_add_single _ 0x00000000#32 reduces_S512x64x2_S512x2 (.inl rfl) rfl (ix2 p c)).trans ?_
  refine Finset.sum_congr rfl fun (s : Fin 64) _ => ?_
  rw [show reduces_S512x64x2_S512x2.lift (ix2 p c) s = ix3 p s c from by coords3]
  refine (shapeCast_apply _ shapeCasts_S32768x2_S512x64x2 (ix3 p s c)
    (ix2 (⟨p.val * 64 + s.val, by have := p.isLt; have := s.isLt; omega⟩ : Fin 32768) c) (by
      rw [Shape.rowMajor_val_two, Shape.rowMajor_val_three]
      show (p.val * 64 + s.val) * 2 + c.val = (p.val * 64 + s.val) * 2 + c.val; rfl)).trans ?_
  refine (product_at _ _ _ c).trans ?_
  rw [← hot_sum (P1 (ix2 p s)) (hP1 _) (fun k => P2 (ix2 k c))]
  refine Finset.sum_congr rfl fun (k : Fin 256) _ => ?_
  refine congrArg₂ (· * ·) ?_ ?_
  · refine (shapeCast_apply _ shapeCasts_S512x64x256_S32768x256
      (ix2 (⟨p.val * 64 + s.val, by have := p.isLt; have := s.isLt; omega⟩ : Fin 32768) k) (ix3 p s k) (by
        rw [Shape.rowMajor_val_two, Shape.rowMajor_val_three]
        show (p.val * 64 + s.val) * 256 + k.val = (p.val * 64 + s.val) * 256 + k.val; rfl)).trans ?_
    exact onehot_at P1 p s k
  · show shapeCast S256x2 P2 shapeCasts_S256x2_S256x2 (ix2 k c) = _
    rw [shapeCast_self]

end Cert.KernelIdeal.KValue

end
-- ==== Proof.KernelBlock.lean ====
/-
  The block a grid point leaves, index by index. From the 512 × 2 block of scores: each row's maximum of its two
  scores (folded from minus infinity), the exponentials of the scores less that maximum, their sum, the two shares; the
  share-weighted front and back table rows; half the distribution's entry plus half that weight times the entry; and the
  value over the row's total plus the small constant.
-/
import proofs.«404544_j79663053406447_1_alg».proof.Proof.KernelScores
import proofs.«404544_j79663053406447_1_alg».proof.Proof.Gen.KernelIdeal.Value

noncomputable section

namespace Cert.KernelIdeal.KValue

open Cert.KernelIdeal Cert.KernelIdeal.Gen Cert.KernelIdeal.Value Cert.Harmony Idealize.ShloMosaic Idealize.ShloMosaic.ValueIdx

local macro "coords2" : tactic => `(tactic| (funext a; exact Fin.ext (by match a with | ⟨0, _⟩ => rfl | ⟨1, _⟩ => rfl)))
local macro "coords1" : tactic => `(tactic| (funext a; exact Fin.ext (by match a with | ⟨0, _⟩ => rfl)))

/-! ## Layout operations of the body read at an index -/

/-- A per-row value spread over the pair's two positions. -/
theorem pair_of_rows (x : FVec Ideal S512 .f32) (p : Fin 512) (c : Fin 2) :
    broadcastTo S512x2 (shapeCast S512x1 x shapeCasts_S512_S512x1) broadcasts_S512x1_S512x2 (ix2 p c) = x (ix1 p) := by
  refine (broadcastTo_apply _ _ (ix2 p c) (ix2 p (0 : Fin 1)) (fun a => by
    match a with
    | ⟨0, _⟩ => show p.val = if (512 : Nat) = 1 then 0 else p.val; rw [if_neg (by decide)]
    | ⟨1, _⟩ => show 0 = if (1 : Nat) = 1 then 0 else c.val; rw [if_pos rfl])).trans ?_
  exact shapeCast_apply _ _ (ix2 p (0 : Fin 1)) (ix1 p) (by
    rw [Shape.rowMajor_val_one, Shape.rowMajor_val_two]; show p.val = p.val * 1 + 0; omega)

/-- A per-row value spread over the 256 columns. -/
theorem cols_of_rows (x : FVec Ideal S512 .f32) (p : Fin 512) (q : Fin 256) :
    broadcastTo S512x256 (shapeCast S512x1 x shapeCasts_S512_S512x1) broadcasts_S512x1_S512x256 (ix2 p q) = x (ix1 p) := by
  refine (broadcastTo_apply _ _ (ix2 p q) (ix2 p (0 : Fin 1)) (fun a => by
    match a with
    | ⟨0, _⟩ => show p.val = if (512 : Nat) = 1 then 0 else p.val; rw [if_neg (by decide)]
    | ⟨1, _⟩ => show 0 = if (1 : Nat) = 1 then 0 else q.val; rw [if_pos rfl])).trans ?_
  exact shapeCast_apply _ _ (ix2 p (0 : Fin 1)) (ix1 p) (by
    rw [Shape.rowMajor_val_one, Shape.rowMajor_val_two]; show p.val = p.val * 1 + 0; omega)

/-- The pair's first position spread over the 256 columns. -/
theorem cols_of_first (y : FVec Ideal S512x2 .f32) (p : Fin 512) (q : Fin 256) :
    broadcastTo S512x256 (extractStridedSlice S512x1 ![0, 0] y slices_S512x2_o0_0_S512x1) broadcasts_S512x1_S512x256 (ix2 p q)
      = y (ix2 p (0 : Fin 2)) := by
  refine (broadcastTo_apply _ _ (ix2 p q) (ix2 p (0 : Fin 1)) (fun a => by
    match a with
    | ⟨0, _⟩ => show p.val = if (512 : Nat) = 1 then 0 else p.val; rw [if_neg (by decide)]
    | ⟨1, _⟩ => show 0 = if (1 : Nat) = 1 then 0 else q.val; rw [if_pos rfl])).trans ?_
  exact extractStridedSlice_apply ![0, 0] y slices_S512x2_o0_0_S512x1 (ix2 p (0 : Fin 1)) (ix2 p (0 : Fin 2)) (fun a => by
    match a with
    | ⟨0, _⟩ => show p.val = 0 + p.val; omega
    | ⟨1, _⟩ => show 0 = 0 + 0; rfl)

/-- The pair's second position spread over the 256 columns. -/
theorem cols_of_second (y : FVec Ideal S512x2 .f32) (p : Fin 512) (q : Fin 256) :
    broadcastTo S512x256 (extractStridedSlice S512x1 ![0, 1] y slices_S512x2_o0_1_S512x1) broadcasts_S512x1_S512x256 (ix2 p q)
      = y (ix2 p (1 : Fin 2)) := by
  refine (broadcastTo_apply _ _ (ix2 p q) (ix2 p (0 : Fin 1)) (fun a => by
    match a with
    | ⟨0, _⟩ => show p.val = if (512 : Nat) = 1 then 0 else p.val; rw [if_neg (by decide)]
    | ⟨1, _⟩ => show 0 = if (1 : Nat) = 1 then 0 else q.val; rw [if_pos rfl])).trans ?_
  exact extractStridedSlice_apply ![0, 1] y slices_S512x2_o0_1_S512x1 (ix2 p (0 : Fin 1)) (ix2 p (1 : Fin 2)) (fun a => by
    match a with
    | ⟨0, _⟩ => show p.val = 0 + p.val; omega
    | ⟨1, _⟩ => show 1 = 1 + 0; rfl)

/-- A table row spread over the 512 rows. -/
theorem rows_of_table (P : Vec Ideal S1x256 .f32) (p : Fin 512) (q : Fin 256) :
    broadcastTo S512x256 (shapeCast S1x256 P shapeCasts_S1x256_S1x256) broadcasts_S1x256_S512x256 (ix2 p q) = P (ix2 (0 : Fin 1) q) := by
  rw [shapeCast_self]
  exact broadcastTo_apply _ _ (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])

theorem lift_first (p : Fin 512) : reduces_S512x2_S512.lift (ix1 p) (0 : Fin 2) = ix2 p (0 : Fin 2) := by coords2
theorem lift_second (p : Fin 512) : reduces_S512x2_S512.lift (ix1 p) (1 : Fin 2) = ix2 p (1 : Fin 2) := by coords2

/-! ## The shares -/

/-- Each row's maximum of its pair. -/
def topOf (h : FVec Ideal S512x2 .f32) : FVec Ideal S512 .f32 :=
  multiReduction .maximumf [1] S512 h 0xFF800000#32 reduces_S512x2_S512 (.inl rfl) rfl
/-- The exponentials of the pair less the row's maximum. -/
def expOf (h : FVec Ideal S512x2 .f32) : FVec Ideal S512x2 .f32 :=
  exp (subf h (broadcastTo S512x2 (shapeCast S512x1 (topOf h) shapeCasts_S512_S512x1) broadcasts_S512x1_S512x2))
/-- Each row's sum of its two exponentials. -/
def sumOf (h : FVec Ideal S512x2 .f32) : FVec Ideal S512 .f32 :=
  multiReduction .add [1] S512 (expOf h) 0x00000000#32 reduces_S512x2_S512 (.inl rfl) rfl
/-- The shares. -/
def sharesOf (h : FVec Ideal S512x2 .f32) : FVec Ideal S512x2 .f32 :=
  divf (expOf h) (broadcastTo S512x2 (shapeCast S512x1 (sumOf h) shapeCasts_S512_S512x1) broadcasts_S512x1_S512x2)

theorem topOf_at (h : FVec Ideal S512x2 .f32) (p : Fin 512) :
    topOf h (ix1 p) = max (h (ix2 p (0 : Fin 2))) (h (ix2 p (1 : Fin 2))) := by
  unfold topOf
  refine (Ideal.multiReduction_maximumf_single h 0xFF800000#32 reduces_S512x2_S512 (.inl rfl) rfl (ix1 p)).trans ?_
  refine (fold_pair (α := Ideal .f32) max (FloatOps.ofBits .f32 0xFF800000#32)
    (h ∘ reduces_S512x2_S512.lift (ix1 p) : Fin 2 → Ideal .f32)).trans ?_
  show max (h (reduces_S512x2_S512.lift (ix1 p) (0 : Fin 2)))
    (max (h (reduces_S512x2_S512.lift (ix1 p) (1 : Fin 2))) (Ideal.ofBits .f32 0xFF800000#32)) = _
  rw [negInf_eq_bot, lift_first, lift_second]
  exact max_pair_bot _ _

theorem expOf_at (h : FVec Ideal S512x2 .f32) (p : Fin 512) (c : Fin 2) :
    expOf h (ix2 p c) = Ideal.exp (h (ix2 p c) - max (h (ix2 p (0 : Fin 2))) (h (ix2 p (1 : Fin 2)))) := by
  unfold expOf
  show Ideal.exp (h (ix2 p c)
    - broadcastTo S512x2 (shapeCast S512x1 (topOf h) shapeCasts_S512_S512x1) broadcasts_S512x1_S512x2 (ix2 p c)) = _
  rw [pair_of_rows, topOf_at]

theorem sumOf_at (h : FVec Ideal S512x2 .f32) (p : Fin 512) :
    sumOf h (ix1 p) = expOf h (ix2 p (0 : Fin 2)) + expOf h (ix2 p (1 : Fin 2)) := by
  unfold sumOf
  refine (Ideal.multiReduction_add_single (expOf h) 0x00000000#32 reduces_S512x2_S512 (.inl rfl) rfl (ix1 p)).trans ?_
  show ∑ k : Fin 2, expOf h (reduces_S512x2_S512.lift (ix1 p) k) = _
  rw [Fin.sum_univ_two, lift_first, lift_second]

theorem sharesOf_at (h : FVec Ideal S512x2 .f32) (p : Fin 512) (c : Fin 2) :
    sharesOf h (ix2 p c) = share (h (ix2 p c)) (h (ix2 p (0 : Fin 2))) (h (ix2 p (1 : Fin 2))) := by
  unfold sharesOf share
  show Ideal.div (expOf h (ix2 p c))
    (broadcastTo S512x2 (shapeCast S512x1 (sumOf h) shapeCasts_S512_S512x1) broadcasts_S512x1_S512x2 (ix2 p c)) = _
  rw [pair_of_rows, sumOf_at, expOf_at, expOf_at, expOf_at]

/-! ## The weights, the blended values, the block -/

variable (P0 : Vec Ideal S512x256 .f32) (P1 : Vec Ideal S512x64 .i32) (P2 : Vec Ideal S256x2 .f32) (P3 P4 : Vec Ideal S1x256 .f32)

/-- The share-weighted table rows. -/
def weights : FVec Ideal S512x256 .f32 :=
  addf
    (mulf (broadcastTo S512x256 (extractStridedSlice S512x1 ![0, 0] (sharesOf (counts P1 P2)) slices_S512x2_o0_0_S512x1) broadcasts_S512x1_S512x256)
      (broadcastTo S512x256 (shapeCast S1x256 P3 shapeCasts_S1x256_S1x256) broadcasts_S1x256_S512x256))
    (mulf (broadcastTo S512x256 (extractStridedSlice S512x1 ![0, 1] (sharesOf (counts P1 P2)) slices_S512x2_o0_1_S512x1) broadcasts_S512x1_S512x256)
      (broadcastTo S512x256 (shapeCast S1x256 P4 shapeCasts_S1x256_S1x256) broadcasts_S1x256_S512x256))

/-- The body's second payload is half the weights times the distribution block: the printed operations, named. -/
theorem pay3_eq : k0_pay3 P1 P2 P3 P4 P0
    = mulf (mulf (broadcast S512x256 (Scalar.ofBits .f32 0x3F000000#32)) (weights P1 P2 P3 P4)) P0 := rfl

theorem weights_at (p : Fin 512) (q : Fin 256) :
    weights P1 P2 P3 P4 (ix2 p q)
      = sharesOf (counts P1 P2) (ix2 p (0 : Fin 2)) * P3 (ix2 (0 : Fin 1) q)
        + sharesOf (counts P1 P2) (ix2 p (1 : Fin 2)) * P4 (ix2 (0 : Fin 1) q) := by
  unfold weights
  show broadcastTo S512x256 (extractStridedSlice S512x1 ![0, 0] (sharesOf (counts P1 P2)) slices_S512x2_o0_0_S512x1) broadcasts_S512x1_S512x256 (ix2 p q)
      * broadcastTo S512x256 (shapeCast S1x256 P3 shapeCasts_S1x256_S1x256) broadcasts_S1x256_S512x256 (ix2 p q)
    + broadcastTo S512x256 (extractStridedSlice S512x1 ![0, 1] (sharesOf (counts P1 P2)) slices_S512x2_o0_1_S512x1) broadcasts_S512x1_S512x256 (ix2 p q)
      * broadcastTo S512x256 (shapeCast S1x256 P4 shapeCasts_S1x256_S1x256) broadcasts_S1x256_S512x256 (ix2 p q) = _
  rw [cols_of_first, cols_of_second, rows_of_table, rows_of_table]

/-- The blended block: half the distribution block plus the second payload. -/
def mixed : FVec Ideal S512x256 .f32 :=
  addf (mulf (broadcast S512x256 (Scalar.ofBits .f32 0x3F000000#32)) P0) (k0_pay3 P1 P2 P3 P4 P0)

/-- The row's two scores as the block of codes and the table give them. -/
abbrev sc (p : Fin 512) (c : Fin 2) : EReal := counts P1 P2 (ix2 p c)

theorem mixed_at (p : Fin 512) (q : Fin 256) :
    mixed P0 P1 P2 P3 P4 (ix2 p q)
      = blend (share (sc P1 P2 p 0) (sc P1 P2 p 0) (sc P1 P2 p 1)) (share (sc P1 P2 p 1) (sc P1 P2 p 0) (sc P1 P2 p 1))
          (P3 (ix2 (0 : Fin 1) q)) (P4 (ix2 (0 : Fin 1) q)) (P0 (ix2 p q)) := by
  unfold mixed
  rw [pay3_eq]
  show half * P0 (ix2 p q) + half * weights P1 P2 P3 P4 (ix2 p q) * P0 (ix2 p q) = _
  rw [weights_at, sharesOf_at, sharesOf_at]
  rfl

/-- THE BLOCK, index by index: the blended value over its row's total plus the small constant. -/
theorem block_at (p : Fin 512) (q : Fin 256) :
    E5 P0 P1 P2 P3 P4 (ix2 p q)
      = Ideal.div (mixed P0 P1 P2 P3 P4 (ix2 p q)) ((∑ q' : Fin 256, mixed P0 P1 P2 P3 P4 (ix2 p q')) + tiny) := by
  show Ideal.div (half * P0 (ix5_0 (ix2 p q)) + k0_pay3 P1 P2 P3 P4 P0 (ix5_1 (ix2 p q)))
    (multiReduction .add [1] S512 (mixed P0 P1 P2 P3 P4) 0x00000000#32 reduces_S512x256_S512 (.inl rfl) rfl (ix5_2 (ix2 p q)) + tiny) = _
  rw [show ix5_0 (ix2 p q) = ix2 p q from by coords2, show ix5_1 (ix2 p q) = ix2 p q from by coords2,
    show ix5_2 (ix2 p q) = ix1 p from by coords1]
  refine congrArg₂ Ideal.div rfl (congrArg (· + tiny) ?_)
  refine (Ideal.multiReduction_add_single (mixed P0 P1 P2 P3 P4) 0x00000000#32 reduces_S512x256_S512 (.inl rfl) rfl (ix1 p)).trans ?_
  refine Finset.sum_congr rfl fun (q' : Fin 256) _ => ?_
  exact congrArg (mixed P0 P1 P2 P3 P4) (by coords2)

end Cert.KernelIdeal.KValue

end
-- ==== Proof.KernelSpec.lean ====
/-
  A grid point's block is the corresponding block of the specification G. Stated over variables of the literal block
  types: given that the five loaded blocks are the t-th 512-row blocks of the distribution and of the codes, the whole
  table (front column, back column) and the two table rows, and that every code is below 256, the block the body
  leaves is G's rows t·512 … t·512 + 511.
-/
import proofs.«404544_j79663053406447_1_alg».proof.Proof.KernelBlock

noncomputable section

namespace Cert.KernelIdeal.KValue

open Cert.KernelIdeal Cert.KernelIdeal.Gen Cert.KernelIdeal.Value Cert.Harmony Idealize.ShloMosaic Idealize.ShloMosaic.ValueIdx

/-- Row p of block n is row n·512 + p of the array. -/
abbrev rowOf (n : Nat) (hn : n < 256) (p : Fin 512) : Fin 131072 := ⟨n * 512 + p.val, by have := p.isLt; omega⟩

variable (D : S131072x256.Idx → EReal) (Pv : S131072x64.Idx → BitVec 32) (Fr Bk : S256.Idx → EReal)
variable (hin : ∀ i : S131072x64.Idx, (Pv i).toNat < 256)
variable (tv : Nat) (ht : tv < 256)
variable (P0 : Vec Ideal S512x256 .f32) (P1 : Vec Ideal S512x64 .i32) (P2 : Vec Ideal S256x2 .f32) (P3 P4 : Vec Ideal S1x256 .f32)

variable (h0 : ∀ (p : Fin 512) (q : Fin 256), P0 (ix2 p q) = D (ix2 (rowOf tv ht p) q))
variable (h1 : ∀ (p : Fin 512) (s : Fin 64), P1 (ix2 p s) = Pv (ix2 (rowOf tv ht p) s))
variable (h2f : ∀ k : Fin 256, P2 (ix2 k (0 : Fin 2)) = Fr (ix1 k)) (h2b : ∀ k : Fin 256, P2 (ix2 k (1 : Fin 2)) = Bk (ix1 k))
variable (h3 : ∀ q : Fin 256, P3 (ix2 (0 : Fin 1) q) = Fr (ix1 q)) (h4 : ∀ q : Fin 256, P4 (ix2 (0 : Fin 1) q) = Bk (ix1 q))

include hin h1 in
theorem codes_lt (y : S512x64.Idx) : (P1 y).toNat < 256 := by
  obtain ⟨p, s, rfl⟩ : ∃ (p : Fin 512) (s : Fin 64), y = ix2 p s := ⟨y 0, y 1, eq_ix2 y⟩
  rw [h1]; exact hin _

include hin h1 h2f in
/-- The block's front scores are the rows' front scores. -/
theorem front_counts (p : Fin 512) : counts P1 P2 (ix2 p (0 : Fin 2)) = score Fr Pv (rowOf tv ht p) := by
  rw [counts_at P1 P2 (codes_lt Pv hin tv ht P1 h1)]
  unfold score
  refine Finset.sum_congr rfl fun s _ => ?_
  rw [h2f, look_of_lt _ _ (hin _)]
  exact congrArg Fr (congrArg ix1 (Fin.ext (congrArg BitVec.toNat (h1 p s))))

include hin h1 h2b in
/-- The block's back scores are the rows' back scores. -/
theorem back_counts (p : Fin 512) : counts P1 P2 (ix2 p (1 : Fin 2)) = score Bk Pv (rowOf tv ht p) := by
  rw [counts_at P1 P2 (codes_lt Pv hin tv ht P1 h1)]
  unfold score
  refine Finset.sum_congr rfl fun s _ => ?_
  rw [h2b, look_of_lt _ _ (hin _)]
  exact congrArg Bk (congrArg ix1 (Fin.ext (congrArg BitVec.toNat (h1 p s))))

include hin h0 h1 h2f h2b h3 h4 in
/-- The block's blended values are the rows' blended values. -/
theorem mixed_is_row (p : Fin 512) (q : Fin 256) :
    mixed P0 P1 P2 P3 P4 (ix2 p q) = row D Pv Fr Bk (rowOf tv ht p) q := by
  rw [mixed_at]
  dsimp only [sc]
  rw [front_counts Pv Fr hin tv ht P1 P2 h1 h2f, back_counts Pv Bk hin tv ht P1 P2 h1 h2b, h3, h4, h0]
  rfl

include hin h0 h1 h2f h2b h3 h4 in
/-- THE BLOCK IS G's. -/
theorem block_is_G (p : Fin 512) (q : Fin 256) :
    E5 P0 P1 P2 P3 P4 (ix2 p q) = G D Pv Fr Bk (ix2 (rowOf tv ht p) q) := by
  rw [block_at, mixed_is_row D Pv Fr Bk hin tv ht P0 P1 P2 P3 P4 h0 h1 h2f h2b h3 h4]
  show _ = Ideal.div (row D Pv Fr Bk (rowOf tv ht p) q) ((∑ v : Fin 256, row D Pv Fr Bk (rowOf tv ht p) v) + tiny)
  refine congrArg (fun z => Ideal.div _ (z + tiny)) ?_
  exact Finset.sum_congr rfl fun q' _ => mixed_is_row D Pv Fr Bk hin tv ht P0 P1 P2 P3 P4 h0 h1 h2f h2b h3 h4 p q'

end Cert.KernelIdeal.KValue

end
-- ==== Proof.KernelValue.lean ====
/-
  From blocks to the array. The region's six windows: the codes and the distribution move with the grid point (block t
  is rows t·512 … t·512 + 511), the 256 × 2 table and the two table rows stay whole, the result's block moves with the
  point. The host operations before the region build the table (the front and back tables as its two columns) and the two
  rows (the tables reshaped). Each point writes back G's block of rows; the 256 blocks cover the array; so the array
  after the run is G: the index maps are decided over the grid, membership in a block is read by coordinates, and the
  point whose block holds row r is r / 512.
-/
import proofs.«404544_j79663053406447_1_alg».proof.Proof.KernelSpec
import Idealize.ShloMosaic.Lib.StableHlo.Run

set_option maxRecDepth 16384

noncomputable section

namespace Cert.KernelIdeal.KValue

open Cert.KernelIdeal Cert.KernelIdeal.Gen Cert.KernelIdeal.Value Cert.Harmony
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The four argument arrays on core c. -/
abbrev dist (c : Dev nD) : S131072x256.Idx → EReal := m ((c : Thread nD τ).loc main_arg0)
abbrev codes (c : Dev nD) : S131072x64.Idx → BitVec 32 := m ((c : Thread nD τ).loc main_arg1)
abbrev front (c : Dev nD) : S256.Idx → EReal := m ((c : Thread nD τ).loc main_arg2)
abbrev back (c : Dev nD) : S256.Idx → EReal := m ((c : Thread nD τ).loc main_arg3)

/-- The blocks a point loads, at their literal types. -/
abbrev codesBlk (c : Dev nD) (t : Fin cfg0.N) : Vec Ideal S512x64 .i32 := iblk m c 0 t
abbrev distBlk (c : Dev nD) (t : Fin cfg0.N) : Vec Ideal S512x256 .f32 := iblk m c 1 t
abbrev tableBlk (c : Dev nD) (t : Fin cfg0.N) : Vec Ideal S256x2 .f32 := iblk m c 2 t
abbrev frontBlk (c : Dev nD) (t : Fin cfg0.N) : Vec Ideal S1x256 .f32 := iblk m c 3 t
abbrev backBlk (c : Dev nD) (t : Fin cfg0.N) : Vec Ideal S1x256 .f32 := iblk m c 4 t

theorem hz : (![0, 0] : Fin 2 → Nat) = fun _ => 0 := funext fun a => by fin_cases a <;> rfl

/-! ## What the host operations leave before the region -/

/-- The table: the front table and the back table side by side. -/
theorem table_eq (c : Dev nD) : (V m c main_v2 : S256x2.Idx → EReal)
    = concatenate S256x2 1 [⟨S256x1, broadcastInDim S256x1 ![0] bcast_S256_S256x1_0 (front m c)⟩,
        ⟨S256x1, broadcastInDim S256x1 ![0] bcast_S256_S256x1_0 (back m c)⟩] concatenates_S256x1_S256x1_S256x2_d1 := by
  dsimp only [Gen.V, Gen.hostOps0]; after_results

theorem frontRow_eq (c : Dev nD) : (V m c main_v3 : S1x256.Idx → EReal) = shapeCast S1x256 (front m c) shapeCasts_S256_S1x256 := by
  dsimp only [Gen.V, Gen.hostOps0]; after_results; rfl
theorem backRow_eq (c : Dev nD) : (V m c main_v4 : S1x256.Idx → EReal) = shapeCast S1x256 (back m c) shapeCasts_S256_S1x256 := by
  dsimp only [Gen.V, Gen.hostOps0]; after_results; rfl

theorem col_at (x : S256.Idx → EReal) (k : Fin 256) :
    broadcastInDim S256x1 ![0] bcast_S256_S256x1_0 x (ix2 k (0 : Fin 1)) = x (ix1 k) :=
  broadcastInDim_apply _ bcast_S256_S256x1_0 x (ix2 k (0 : Fin 1)) (ix1 k) (fun a => match a with
    | ⟨0, _⟩ => by show k.val = if (256 : Nat) = 1 then 0 else k.val; rw [if_neg (by decide)])

theorem table_front (c : Dev nD) (k : Fin 256) : (V m c main_v2 : S256x2.Idx → EReal) (ix2 k (0 : Fin 2)) = front m c (ix1 k) := by
  rw [table_eq]
  refine (concatenate_pair_apply_left (t := S256x2) (s₁ := S256x1) (s₂ := S256x1) (1 : Fin 2) _ _
    concatenates_S256x1_S256x1_S256x2_d1 (ix2 k (0 : Fin 2)) rfl (ix2 k (0 : Fin 1))
    (fun a => by match a with | ⟨0, _⟩ => rfl | ⟨1, _⟩ => rfl)).trans ?_
  exact col_at _ k

theorem table_back (c : Dev nD) (k : Fin 256) : (V m c main_v2 : S256x2.Idx → EReal) (ix2 k (1 : Fin 2)) = back m c (ix1 k) := by
  rw [table_eq]
  refine (concatenate_pair_apply_right (t := S256x2) (s₁ := S256x1) (s₂ := S256x1) (1 : Fin 2) _ _
    concatenates_S256x1_S256x1_S256x2_d1 (ix2 k (1 : Fin 2)) rfl rfl (ix2 k (0 : Fin 1))
    (fun a ha => by match a with | ⟨0, _⟩ => rfl | ⟨1, _⟩ => exact absurd rfl ha) rfl).trans ?_
  exact col_at _ k

theorem row_at (x : S256.Idx → EReal) (q : Fin 256) :
    shapeCast S1x256 x shapeCasts_S256_S1x256 (ix2 (0 : Fin 1) q) = x (ix1 q) :=
  shapeCast_apply _ _ (ix2 (0 : Fin 1) q) (ix1 q) (by
    rw [Shape.rowMajor_val_one, Shape.rowMajor_val_two]; show q.val = 0 * 256 + q.val; omega)

/-! ## The windows' blocks -/

/-- The printed index maps, decided over the 256 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem pt_lt (t : Fin cfg0.N) : t.val < 256 := lt_of_lt_of_eq t.isLt N_0

theorem codes_blk (c : Dev nD) (t : Fin cfg0.N) (p : Fin 512) (s : Fin 64) :
    codesBlk m c t (ix2 p s) = codes m c (ix2 (rowOf t.val (pt_lt t) p) s) := by
  obtain ⟨e0, e1, -⟩ := idx_facts t
  show V m c main_arg1 (((cfg0.win 0).blk t).view.emb (ix2 p s)) = _
  rw [V_main_arg1]
  refine congrArg (codes m c) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 64 + 1 * s.val = s.val; rw [e1]; omega

theorem dist_blk (c : Dev nD) (t : Fin cfg0.N) (p : Fin 512) (q : Fin 256) :
    distBlk m c t (ix2 p q) = dist m c (ix2 (rowOf t.val (pt_lt t) p) q) := by
  obtain ⟨-, -, e0, e1, -⟩ := idx_facts t
  show V m c main_arg0 (((cfg0.win 1).blk t).view.emb (ix2 p q)) = _
  rw [V_main_arg0]
  refine congrArg (dist m c) (funext fun a => Fin.ext ?_)
  match a with
  | ⟨0, _⟩ => show win0_1.index t (0 : Fin 2) * 512 + 1 * p.val = t.val * 512 + p.val; rw [e0]; omega
  | ⟨1, _⟩ => show win0_1.index t (1 : Fin 2) * 256 + 1 * q.val = q.val; rw [e1]; omega

theorem table_blk (c : Dev nD) (t : Fin cfg0.N) (k : Fin 256) (d : Fin 2) :
    tableBlk m c t (ix2 k d) = (V m c main_v2 : S256x2.Idx → EReal) (ix2 k d) := by
  obtain ⟨-, -, -, -, e0, e1, -⟩ := idx_facts t
  show (V m c main_v2 : S256x2.Idx → EReal) (((cfg0.win 2).blk t).view.emb (ix2 k d)) = _
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 2 + 1 * d.val = d.val; rw [e1]; omega

theorem front_blk (c : Dev nD) (t : Fin cfg0.N) (q : Fin 256) :
    frontBlk m c t (ix2 (0 : Fin 1) q) = front m c (ix1 q) := by
  obtain ⟨-, -, -, -, -, -, e0, e1, -⟩ := idx_facts t
  show (V m c main_v3 : S1x256.Idx → EReal) (((cfg0.win 3).blk t).view.emb (ix2 (0 : Fin 1) q)) = _
  rw [frontRow_eq, ← row_at (front m c) q]
  refine congrArg _ (funext fun a => Fin.ext ?_)
  match a with
  | ⟨0, _⟩ => show win0_3.index t (0 : Fin 2) * 1 + 1 * 0 = 0; rw [e0]
  | ⟨1, _⟩ => show win0_3.index t (1 : Fin 2) * 256 + 1 * q.val = q.val; rw [e1]; omega

theorem back_blk (c : Dev nD) (t : Fin cfg0.N) (q : Fin 256) :
    backBlk m c t (ix2 (0 : Fin 1) q) = back m c (ix1 q) := by
  obtain ⟨-, -, -, -, -, -, -, -, e0, e1, -⟩ := idx_facts t
  show (V m c main_v4 : S1x256.Idx → EReal) (((cfg0.win 4).blk t).view.emb (ix2 (0 : Fin 1) q)) = _
  rw [backRow_eq, ← row_at (back m c) q]
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-! ## What a point writes back, the cover, the array -/

variable (hin : ∀ (c : Dev nD) (i : S131072x64.Idx), (codes m c i).toNat < 256)

include hin in
/-- WHAT POINT t WRITES BACK is block t of G of the argument arrays. -/
theorem flushed_eq (c : Dev nD) (t : Fin cfg0.N) :
    (dats m 0 c).flushed 5 t
      = ((cfg0.win 5).blk t).view.read (Elt Ideal) (G (dist m c) (codes m c) (front m c) (back m c)) := by
  rw [flushed5]
  unfold out0_5
  simp only [View.ld_unit_zero (S := S512x64) hz, View.ld_unit_zero (S := S512x256) hz, View.ld_unit_zero (S := S256x2) hz,
    View.ld_unit_zero (S := S1x256) hz]
  funext j
  obtain ⟨p, q, rfl⟩ : ∃ (p : Fin 512) (q : Fin 256), j = ix2 p q := ⟨j 0, j 1, eq_ix2 j⟩
  obtain ⟨-, -, -, -, -, -, -, -, -, -, e0, e1⟩ := idx_facts t
  refine (canon5_eq (distBlk m c t) (codesBlk m c t) (tableBlk m c t) (frontBlk m c t) (backBlk m c t) (ix2 p q)).trans ?_
  refine (block_is_G (dist m c) (codes m c) (front m c) (back m c) (hin c) t.val (pt_lt t)
    (distBlk m c t) (codesBlk m c t) (tableBlk m c t) (frontBlk m c t) (backBlk m c t)
    (dist_blk m c t) (codes_blk m c t)
    (fun k => (table_blk m c t k 0).trans (table_front m c k)) (fun k => (table_blk m c t k 1).trans (table_back m c k))
    (front_blk m c t) (back_blk m c t) p q).trans ?_
  show G (dist m c) (codes m c) (front m c) (back m c) (ix2 (rowOf t.val (pt_lt t) p) q)
    = G (dist m c) (codes m c) (front m c) (back m c) (((cfg0.win 5).blk t).view.emb (ix2 p q))
  refine congrArg (G (dist m c) (codes m c) (front m c) (back m c)) (funext fun a => Fin.ext ?_)
  match a with
  | ⟨0, _⟩ => show t.val * 512 + p.val = win0_5.index t (0 : Fin 2) * 512 + 1 * p.val; rw [e0]; omega
  | ⟨1, _⟩ => show q.val = win0_5.index t (1 : Fin 2) * 256 + 1 * q.val; rw [e1]; omega

/-- An index of the array is in point t's block iff each coordinate is in the block's range on its axis. -/
theorem mem_blk (t : Fin cfg0.N) (i : S131072x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v5).slice (win0_5.rect t)).set ↔ _
  rw [View.set_slice_whole, Rect.mem_set_unit]
  exact Iff.rfl

/-- Every index is in the block of the point its row falls in. -/
theorem cover (i : S131072x256.Idx) : ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 512 < cfg0.N := by rw [show cfg0.N = 256 from N_0]; omega
  refine ⟨⟨(i 0).val / 512, hN⟩, flush0_5 _, ?_⟩
  obtain ⟨-, -, -, -, -, -, -, -, -, -, e0, e1⟩ := idx_facts ⟨(i 0).val / 512, hN⟩
  rw [mem_blk]
  intro a
  match a with
  | ⟨0, _⟩ =>
    show win0_5.index ⟨(i 0).val / 512, hN⟩ (0 : Fin 2) * 512 ≤ (i 0).val ∧ (i 0).val < win0_5.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hN⟩ (1 : Fin 2) * 256 ≤ (i 1).val ∧ (i 1).val < win0_5.index ⟨(i 0).val / 512, hN⟩ (1 : Fin 2) * 256 + 256
    rw [e1]; omega

include hin in
/-- THE ARRAY after the run is G of the argument arrays. -/
theorem final (c : Dev nD) :
    (dats m 0 c).arrAt 5 cfg0.N = G (dist m c) (codes m c) (front m c) (back m c) :=
  (dats m 0 c).arrAt_eq_of_cover 5 (G (dist m c) (codes m c) (front m c) (back m c))
    (fun t _ => flushed_eq m hin c t) cover

include hin in
/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v5) = G (dist m c) (codes m c) (front m c) (back m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hin c), (h c).2⟩) (run_blocks m ρ)

end Cert.KernelIdeal.KValue

end
-- ==== Proof.lean ====
/-
  The certificate's claims, assembled.

  Both programs, at the ideal instance and from arguments that agree, end with the same array: for each row, the two
  harmony scores (the front table and the back table summed over the row's previous-character codes), their softmax
  shares, the share-weighted table rows, the blended distribution, and its normalisation by the row total plus a small
  constant. The kernel reaches the scores by a one-hot comparison against the vocabulary positions and a matrix product
  with the two-column table; the reference by reading the tables at the codes. The two agree because every code is a
  position of the tables: the precondition keeps the codes in [0, 256), where the one-hot row has its single one and the
  reference's wrap-around of negative positions and its clamp into the table both leave the code as it is. No law of
  the extended reals beyond "zero times anything is zero, one times anything is itself" is used, so the finiteness of the
  float inputs is not.

  The three frames are the generated frame runs (the kernel's at both instances, the reference's run with its result
  dropped); the idealization changed no operation, so its claim has nothing to state.
-/
import proofs.«404544_j79663053406447_1_alg».proof.Defs
import proofs.«404544_j79663053406447_1_alg».proof.Proof.Gen.Kernel
import proofs.«404544_j79663053406447_1_alg».proof.Proof.Gen.Kernel.Skeleton
import proofs.«404544_j79663053406447_1_alg».proof.Proof.Gen.Kernel.Launch
import proofs.«404544_j79663053406447_1_alg».proof.Proof.Gen.Kernel.Points
import proofs.«404544_j79663053406447_1_alg».proof.Proof.Gen.Kernel.Frame
import proofs.«404544_j79663053406447_1_alg».proof.Proof.Gen.KernelIdeal
import proofs.«404544_j79663053406447_1_alg».proof.Proof.Gen.KernelIdeal.Skeleton
import proofs.«404544_j79663053406447_1_alg».proof.Proof.Gen.KernelIdeal.Launch
import proofs.«404544_j79663053406447_1_alg».proof.Proof.Gen.KernelIdeal.Points
import proofs.«404544_j79663053406447_1_alg».proof.Proof.Gen.KernelIdeal.Frame
import proofs.«404544_j79663053406447_1_alg».proof.Proof.Gen.ReferenceIdeal
import proofs.«404544_j79663053406447_1_alg».proof.Proof.Gen.Pre_finite_inputs
import proofs.«404544_j79663053406447_1_alg».proof.Proof.Gen.KernelIdeal.Value
import proofs.«404544_j79663053406447_1_alg».proof.Proof.Gen.ReferenceIdeal.Run
import proofs.«404544_j79663053406447_1_alg».proof.Proof.Gen.ReferenceIdeal.Read
import proofs.«404544_j79663053406447_1_alg».proof.Proof.Range
import proofs.«404544_j79663053406447_1_alg».proof.Proof.RefValue
import proofs.«404544_j79663053406447_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the specification G of the (agreeing) arguments: the kernel's by its blocks, the reference's stage
    by stage, each under the decoded range of the codes. -/
theorem algebraic : Cert.algebraic_KernelIdeal_ReferenceIdeal := by
  intro m ρ m' ρ' hpre hagree
  have hin : ∀ (c : Dev Cert.KernelIdeal.nD) (i : Cert.KernelIdeal.S131072x64.Idx),
      (Cert.KernelIdeal.KValue.codes m c i).toNat < 256 :=
    fun c i => Cert.Harmony.Range.codes_lt _ _ _ _ (hpre c) i
  refine ⟨fun c => Cert.Harmony.G (Cert.KernelIdeal.KValue.dist m c) (Cert.KernelIdeal.KValue.codes m c)
    (Cert.KernelIdeal.KValue.front m c) (Cert.KernelIdeal.KValue.back m c), Cert.KernelIdeal.KValue.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2]
  exact Cert.ReferenceIdeal.RefValue.result_eq _ _ _ _ (hin c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
